-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S32000000 : Shape := ⟨1, ![32000000]⟩
abbrev S1000000x7 : Shape := ⟨2, ![1000000, 7]⟩
abbrev S_ : Shape := ⟨0, ![]⟩

class Facts : Prop where
  bcast_S_S1000000 : S_.BroadcastsInDim S1000000 (![] : Fin 0 → Fin S1000000.rank)
  reducesTo_S1000000_S_d0 : S1000000.ReducesTo [0] S_
  h_S_ : 0 < S_.numel
  bcast_S_S32000000 : S_.BroadcastsInDim S32000000 (![] : Fin 0 → Fin S32000000.rank)
  reducesTo_S32000000_S_d0 : S32000000.ReducesTo [0] S_
  bcast_S_S1000000x7 : S_.BroadcastsInDim S1000000x7 (![] : Fin 0 → Fin S1000000x7.rank)
  reducesTo_S1000000x7_S_d0_1 : S1000000x7.ReducesTo [0, 1] S_

variable [Facts]

def fn {F : FTy → Type} [FloatOps F] (main_arg0 : FVec F S1000000 .f32) (main_arg1 : FVec F S32000000 .f32) (main_arg2 : FVec F S1000000x7 .f32) (main_arg3 : IVec S32000000 32) (main_arg4 : IVec S32000000 32) : IVec S_ 1 :=
  let main_v0 : FVec F S1000000 .f32 := Host.absf main_arg0
  let main_cst : FVec F S_ .f32 := constant S_ .f32 0x7F800000#32
  let main_v1 : FVec F S1000000 .f32 := broadcastInDim S1000000 ![] bcast_S_S1000000 main_cst
  let main_v2 : IVec S1000000 1 := cmpf .olt main_v0 main_v1
  let main_c : IVec S_ 1 := constantI S_ 1 1#1
  let main_v3 : IVec S_ 1 := (fun x v => Host.reduce IntOp.andi x v reducesTo_S1000000_S_d0 h_S_) main_v2 main_c
  let main_v4 : FVec F S32000000 .f32 := Host.absf main_arg1
  let main_cst_0 : FVec F S_ .f32 := constant S_ .f32 0x7F800000#32
  let main_v5 : FVec F S32000000 .f32 := broadcastInDim S32000000 ![] bcast_S_S32000000 main_cst_0
  let main_v6 : IVec S32000000 1 := cmpf .olt main_v4 main_v5
  let main_c_1 : IVec S_ 1 := constantI S_ 1 1#1
  let main_v7 : IVec S_ 1 := (fun x v => Host.reduce IntOp.andi x v reducesTo_S32000000_S_d0 h_S_) main_v6 main_c_1
  let main_v8 : IVec S_ 1 := andi main_v3 main_v7
  let main_v9 : FVec F S1000000x7 .f32 := Host.absf main_arg2
  let main_cst_2 : FVec F S_ .f32 := constant S_ .f32 0x7F800000#32
  let main_v10 : FVec F S1000000x7 .f32 := broadcastInDim S1000000x7 ![] bcast_S_S1000000x7 main_cst_2
  let main_v11 : IVec S1000000x7 1 := cmpf .olt main_v9 main_v10
  let main_c_3 : IVec S_ 1 := constantI S_ 1 1#1
  let main_v12 : IVec S_ 1 := (fun x v => Host.reduce IntOp.andi x v reducesTo_S1000000x7_S_d0_1 h_S_) main_v11 main_c_3
  let main_v13 : IVec S_ 1 := andi main_v8 main_v12
  main_v13
-- ==== Kernel.lean ====
abbrev S1000000 : Shape := ⟨1, ![1000000]⟩
abbrev S32000000 : Shape := ⟨1, ![32000000]⟩
abbrev S1000000x7 : Shape := ⟨2, ![1000000, 7]⟩
abbrev S_ : Shape := ⟨0, ![]⟩
abbrev S32000000x1 : Shape := ⟨2, ![32000000, 1]⟩
abbrev S250000x128 : Shape := ⟨2, ![250000, 128]⟩
abbrev S10000x128 : Shape := ⟨2, ![10000, 128]⟩
abbrev S1000000x1 : Shape := ⟨2, ![1000000, 1]⟩
abbrev S5000x1 : Shape := ⟨2, ![5000, 1]⟩
abbrev S5000x7 : Shape := ⟨2, ![5000, 7]⟩

abbrev nBuf : Space → Nat
  | .hbm => 25
  | .vmem => 12
  | .smem => 0
  | _ => 0

abbrev bufTy : (tb : Table) → Fin (tcTables nBuf tb) → BufTy
  | .hbm, ⟨0, _⟩ => ⟨S1000000, .f32⟩
  | .hbm, ⟨1, _⟩ => ⟨S32000000, .f32⟩
  | .hbm, ⟨2, _⟩ => ⟨S1000000x7, .f32⟩
  | .hbm, ⟨3, _⟩ => ⟨S32000000, .i32⟩
  | .hbm, ⟨4, _⟩ => ⟨S32000000, .i32⟩
  | .hbm, ⟨5, _⟩ => ⟨S_, .i32⟩
  | .hbm, ⟨6, _⟩ => ⟨S32000000, .i32⟩
  | .hbm, ⟨7, _⟩ => ⟨S32000000, .i1⟩
  | .hbm, ⟨8, _⟩ => ⟨S_, .i32⟩
  | .hbm, ⟨9, _⟩ => ⟨S32000000, .i32⟩
  | .hbm, ⟨10, _⟩ => ⟨S32000000, .i32⟩
  | .hbm, ⟨11, _⟩ => ⟨S32000000, .i32⟩
  | .hbm, ⟨12, _⟩ => ⟨S32000000x1, .i32⟩
  | .hbm, ⟨13, _⟩ => ⟨S32000000, .f32⟩
  | .hbm, ⟨14, _⟩ => ⟨S250000x128, .f32⟩
  | .hbm, ⟨15, _⟩ => ⟨S250000x128, .f32⟩
  | .hbm, ⟨16, _⟩ => ⟨S250000x128, .f32⟩
  | .hbm, ⟨17, _⟩ => ⟨S32000000, .f32⟩
  | .hbm, ⟨18, _⟩ => ⟨S_, .f32⟩
  | .hbm, ⟨19, _⟩ => ⟨S1000000, .f32⟩
  | .hbm, ⟨20, _⟩ => ⟨S32000000x1, .i32⟩
  | .hbm, ⟨21, _⟩ => ⟨S1000000, .f32⟩
  | .hbm, ⟨22, _⟩ => ⟨S1000000x1, .f32⟩
  | .hbm, ⟨23, _⟩ => ⟨S1000000x1, .f32⟩
  | .hbm, ⟨24, _⟩ => ⟨S1000000, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S5000x1, .f32⟩
  | .local _ .vmem, ⟨7, _⟩ => ⟨S5000x1, .f32⟩
  | .local _ .vmem, ⟨8, _⟩ => ⟨S5000x7, .f32⟩
  | .local _ .vmem, ⟨9, _⟩ => ⟨S5000x7, .f32⟩
  | .local _ .vmem, ⟨10, _⟩ => ⟨S5000x1, .f32⟩
  | .local _ .vmem, ⟨11, _⟩ => ⟨S5000x1, .f32⟩
  | _, _ => ⟨S1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x7 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S32000000 : S_.BroadcastsInDim S32000000 (![] : Fin 0 → Fin S32000000.rank)
  bcast_S32000000_S32000000x1_0 : S32000000.BroadcastsInDim S32000000x1 (![0] : Fin 1 → Fin S32000000x1.rank)
  shapeCasts_S32000000_S250000x128 : S32000000.ShapeCasts S250000x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  shapeCasts_S250000x128_S32000000 : S250000x128.ShapeCasts S32000000
  bcast_S_S1000000 : S_.BroadcastsInDim S1000000 (![] : Fin 0 → Fin S1000000.rank)
  shapeCasts_S1000000_S1000000x1 : S1000000.ShapeCasts S1000000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x7_S5000x1_0_0 : ∀ a, (![0, 0] : Fin 2 → Nat) a + S5000x1.size a ≤ S5000x7.size a
  inb_S5000x7_S5000x1_0_1 : ∀ a, (![0, 1] : Fin 2 → Nat) a + S5000x1.size a ≤ S5000x7.size a
  inb_S5000x7_S5000x1_0_2 : ∀ a, (![0, 2] : Fin 2 → Nat) a + S5000x1.size a ≤ S5000x7.size a
  inb_S5000x7_S5000x1_0_3 : ∀ a, (![0, 3] : Fin 2 → Nat) a + S5000x1.size a ≤ S5000x7.size a
  inb_S5000x7_S5000x1_0_4 : ∀ a, (![0, 4] : Fin 2 → Nat) a + S5000x1.size a ≤ S5000x7.size a
  inb_S5000x7_S5000x1_0_5 : ∀ a, (![0, 5] : Fin 2 → Nat) a + S5000x1.size a ≤ S5000x7.size a
  shapeCasts_S1000000x1_S1000000 : S1000000x1.ShapeCasts S1000000
  gather_S1000000_S32000000x1_S32000000_n_0_n_n_0_1_1_wf : GatherDims.WF S1000000 S32000000x1 S32000000 [] [0] [] [0] [] 1 ![1]
  scatter_S1000000_S32000000x1_S32000000_n_0_0_1_wf : ScatterDims.WF S1000000 S32000000x1 S32000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S250000x128.size a
  hwx0_0 : ∀ i : grid0.Coords, EltTy.bits .f32 = 32 ∨ (Rect.block (s := S250000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S250000x128.size a
  hwx0_1 : ∀ i : grid0.Coords, EltTy.bits .f32 = 32 ∨ (Rect.block (s := S250000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S250000x128.size a
  hwx0_2 : ∀ i : grid0.Coords, EltTy.bits .f32 = 32 ∨ (Rect.block (s := S250000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x1.size a ≤ S1000000x1.size a
  hwx1_0 : ∀ i : grid1.Coords, EltTy.bits .f32 = 32 ∨ (Rect.block (s := S1000000x1) S5000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x7.size a ≤ S1000000x7.size a
  hwx1_1 : ∀ i : grid1.Coords, EltTy.bits .f32 = 32 ∨ (Rect.block (s := S1000000x7) S5000x7.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S1000000x1.size a
  hwx1_2 : ∀ i : grid1.Coords, EltTy.bits .f32 = 32 ∨ (Rect.block (s := S1000000x1) S5000x1.size (cc1_transform_2 i) (hinb1_2 i)).WholeWords (EltTy.packing .f32)

variable [Facts₀]

def gather_S1000000_S32000000x1_S32000000_n_0_n_n_0_1_1 : GatherDims S1000000 S32000000x1 S32000000 where
  offsetDims := []
  collapsedSliceDims := [0]
  operandBatchingDims := []
  startIndicesBatchingDims := []
  startIndexMap := [0]
  indexVectorDim := 1
  sliceSizes := ![1]
  wf := gather_S1000000_S32000000x1_S32000000_n_0_n_n_0_1_1_wf
def scatter_S1000000_S32000000x1_S32000000_n_0_0_1 : ScatterDims S1000000 S32000000x1 S32000000 where
  updateWindowDims := []
  insertedWindowDims := [0]
  scatterDimsToOperandDims := [0]
  indexVectorDim := 1
  wf := scatter_S1000000_S32000000x1_S32000000_n_0_0_1_wf

abbrev win0_0 : Pipeline.Window sig grid0 :=
  Pipeline.Window.ofSpec (Memref.whole main_v7) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S5000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S5000x7.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S1000000 : Shape := ⟨1, ![1000000]⟩
abbrev S32000000 : Shape := ⟨1, ![32000000]⟩
abbrev S1000000x7 : Shape := ⟨2, ![1000000, 7]⟩
abbrev S_ : Shape := ⟨0, ![]⟩
abbrev S32000000x1 : Shape := ⟨2, ![32000000, 1]⟩
abbrev S1000000x1 : Shape := ⟨2, ![1000000, 1]⟩
abbrev S1000000x6 : Shape := ⟨2, ![1000000, 6]⟩

abbrev nBuf : Space → Nat
  | .hbm => 42
  | .vmem => 0
  | .smem => 0
  | _ => 0

abbrev bufTy : (tb : Table) → Fin (tcTables nBuf tb) → BufTy
  | .hbm, ⟨0, _⟩ => ⟨S1000000, .f32⟩
  | .hbm, ⟨1, _⟩ => ⟨S32000000, .f32⟩
  | .hbm, ⟨2, _⟩ => ⟨S1000000x7, .f32⟩
  | .hbm, ⟨3, _⟩ => ⟨S32000000, .i32⟩
  | .hbm, ⟨4, _⟩ => ⟨S32000000, .i32⟩
  | .hbm, ⟨5, _⟩ => ⟨S_, .i32⟩
  | .hbm, ⟨6, _⟩ => ⟨S32000000, .i32⟩
  | .hbm, ⟨7, _⟩ => ⟨S32000000, .i1⟩
  | .hbm, ⟨8, _⟩ => ⟨S_, .i32⟩
  | .hbm, ⟨9, _⟩ => ⟨S32000000, .i32⟩
  | .hbm, ⟨10, _⟩ => ⟨S32000000, .i32⟩
  | .hbm, ⟨11, _⟩ => ⟨S32000000, .i32⟩
  | .hbm, ⟨12, _⟩ => ⟨S32000000x1, .i32⟩
  | .hbm, ⟨13, _⟩ => ⟨S32000000, .f32⟩
  | .hbm, ⟨14, _⟩ => ⟨S32000000, .f32⟩
  | .hbm, ⟨15, _⟩ => ⟨S_, .f32⟩
  | .hbm, ⟨16, _⟩ => ⟨S1000000, .f32⟩
  | .hbm, ⟨17, _⟩ => ⟨S32000000x1, .i32⟩
  | .hbm, ⟨18, _⟩ => ⟨S1000000, .f32⟩
  | .hbm, ⟨19, _⟩ => ⟨S1000000x1, .f32⟩
  | .hbm, ⟨20, _⟩ => ⟨S1000000, .f32⟩
  | .hbm, ⟨21, _⟩ => ⟨S1000000, .f32⟩
  | .hbm, ⟨22, _⟩ => ⟨S1000000x6, .f32⟩
  | .hbm, ⟨23, _⟩ => ⟨S1000000x1, .f32⟩
  | .hbm, ⟨24, _⟩ => ⟨S1000000, .f32⟩
  | .hbm, ⟨25, _⟩ => ⟨S1000000, .f32⟩
  | .hbm, ⟨26, _⟩ => ⟨S1000000, .f32⟩
  | .hbm, ⟨27, _⟩ => ⟨S1000000x1, .f32⟩
  | .hbm, ⟨28, _⟩ => ⟨S1000000, .f32⟩
  | .hbm, ⟨29, _⟩ => ⟨S1000000, .f32⟩
  | .hbm, ⟨30, _⟩ => ⟨S1000000x1, .f32⟩
  | .hbm, ⟨31, _⟩ => ⟨S1000000, .f32⟩
  | .hbm, ⟨32, _⟩ => ⟨S1000000, .f32⟩
  | .hbm, ⟨33, _⟩ => ⟨S1000000, .f32⟩
  | .hbm, ⟨34, _⟩ => ⟨S1000000, .f32⟩
  | .hbm, ⟨35, _⟩ => ⟨S1000000x1, .f32⟩
  | .hbm, ⟨36, _⟩ => ⟨S1000000, .f32⟩
  | .hbm, ⟨37, _⟩ => ⟨S1000000, .f32⟩
  | .hbm, ⟨38, _⟩ => ⟨S1000000, .f32⟩
  | .hbm, ⟨39, _⟩ => ⟨S1000000x1, .f32⟩
  | .hbm, ⟨40, _⟩ => ⟨S1000000, .f32⟩
  | .hbm, ⟨41, _⟩ => ⟨S1000000, .f32⟩
  | _, _ => ⟨S1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]

class Facts₀ : Prop where
  bcast_S_S32000000 : S_.BroadcastsInDim S32000000 (![] : Fin 0 → Fin S32000000.rank)
  bcast_S32000000_S32000000x1_0 : S32000000.BroadcastsInDim S32000000x1 (![0] : Fin 1 → Fin S32000000x1.rank)
  bcast_S_S1000000 : S_.BroadcastsInDim S1000000 (![] : Fin 0 → Fin S1000000.rank)
  slices_S1000000x7_S1000000x1_0_0 : S1000000x7.Slices ![0, 0] S1000000x1
  shapeCasts_S1000000x1_S1000000 : S1000000x1.ShapeCasts S1000000
  slices_S1000000x7_S1000000x6_0_1 : S1000000x7.Slices ![0, 1] S1000000x6
  slices_S1000000x6_S1000000x1_0_0 : S1000000x6.Slices ![0, 0] S1000000x1
  slices_S1000000x6_S1000000x1_0_1 : S1000000x6.Slices ![0, 1] S1000000x1
  slices_S1000000x6_S1000000x1_0_2 : S1000000x6.Slices ![0, 2] S1000000x1
  slices_S1000000x6_S1000000x1_0_3 : S1000000x6.Slices ![0, 3] S1000000x1
  slices_S1000000x6_S1000000x1_0_4 : S1000000x6.Slices ![0, 4] S1000000x1
  gather_S1000000_S32000000x1_S32000000_n_0_n_n_0_1_1_wf : GatherDims.WF S1000000 S32000000x1 S32000000 [] [0] [] [0] [] 1 ![1]
  scatter_S1000000_S32000000x1_S32000000_n_0_0_1_wf : ScatterDims.WF S1000000 S32000000x1 S32000000 [] [0] [0] 1

variable [Facts₀]

def gather_S1000000_S32000000x1_S32000000_n_0_n_n_0_1_1 : GatherDims S1000000 S32000000x1 S32000000 where
  offsetDims := []
  collapsedSliceDims := [0]
  operandBatchingDims := []
  startIndicesBatchingDims := []
  startIndexMap := [0]
  indexVectorDim := 1
  sliceSizes := ![1]
  wf := gather_S1000000_S32000000x1_S32000000_n_0_n_n_0_1_1_wf
def scatter_S1000000_S32000000x1_S32000000_n_0_0_1 : ScatterDims S1000000 S32000000x1 S32000000 where
  updateWindowDims := []
  insertedWindowDims := [0]
  scatterDimsToOperandDims := [0]
  indexVectorDim := 1
  wf := scatter_S1000000_S32000000x1_S32000000_n_0_0_1_wf

class Facts : Prop extends Facts₀ where

variable [Facts]
-- ==== Proof.EdgeProduct.lean ====
/-
  Region 0 multiplies two [250000, 128] arrays element by element, 25 row blocks of 10000 rows each. Grid point `t`
  reads rows 10000·t … 10000·t + 9999 of both inputs and writes the same rows of the output, so once every point has
  written back, the output array is the product of the two input arrays as the region found them.
-/
import proofs.«110390_j1760936591969_1_alg».proof.Proof.Gen.KernelIdeal.Frame
import Idealize.ShloMosaic.Lib.Pipeline.Value

set_option maxRecDepth 16384

noncomputable section

namespace Cert.KernelIdeal.EdgeProduct

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The body's one load rectangle and one store rectangle start at the origin of the staging buffer. -/
theorem origin : (![0, 0] : Fin 2 → Nat) = fun _ => 0 := funext fun a => by fin_cases a <;> rfl

/-- The element-by-element product of two message-shaped arrays. -/
abbrev prod (a b : S250000x128.Idx → Elt F .f32) : S250000x128.Idx → Elt F .f32 := fun i => FloatOps.mulf (a i) (b i)

/-- What the body stores is the product of what it loaded: the two shape casts are to the same shape. -/
theorem stored_eq (x y : Vec F S10000x128 .f32) : k0_pay1 x y = mulf x y := by
  unfold k0_pay1
  rw [shapeCast_self, shapeCast_self]

/-- At every grid point the three windows sit on the same row block, number `t`, and on the one column block. -/
theorem same_block : ∀ t : Fin cfg0.N,
    win0_0.index t (0 : Fin 2) = win0_2.index t (0 : Fin 2) ∧ win0_0.index t (1 : Fin 2) = win0_2.index t (1 : Fin 2)
    ∧ win0_1.index t (0 : Fin 2) = win0_2.index t (0 : Fin 2) ∧ win0_1.index t (1 : Fin 2) = win0_2.index t (1 : Fin 2)
    ∧ win0_2.index t (0 : Fin 2) = t.val ∧ win0_2.index t (1 : Fin 2) = 0 :=
  (by decide +kernel : ∀ t : Fin grid0.N, _)

/-- Point `t` writes back rows 10000·t … of the product of the two input arrays. -/
theorem wrote (c : Dev nD) (t : Fin cfg0.N) :
    (dat0 V c).flushed 2 t = ((cfg0.win 2).blk t).view.read (Elt F) (prod (V c main_v7) (V c main_v8)) := by
  show (cfg0.win 2).cut (grid0.coords t) ((dat0 V c).after 2 t) = _
  rw [after0_2]
  unfold out0_2
  rw [View.canon_unit_zero origin]
  simp only [View.ld_unit_zero (S := S10000x128) origin]
  rw [stored_eq]
  obtain ⟨e0, e1, e2, e3, -, -⟩ := same_block t
  funext j
  show FloatOps.mulf (V c main_v7 (((cfg0.win 0).blk t).view.emb j)) (V c main_v8 (((cfg0.win 1).blk t).view.emb j))
    = FloatOps.mulf (V c main_v7 (((cfg0.win 2).blk t).view.emb j)) (V c main_v8 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 10000 + 1 * (j 0).val = win0_2.index t (0 : Fin 2) * 10000 + 1 * (j 0).val; omega
    | ⟨1, _⟩ => show win0_1.index t (1 : Fin 2) * 128 + 1 * (j 1).val = win0_2.index t (1 : Fin 2) * 128 + 1 * (j 1).val; omega
  rw [h0, h1]

/-- An index lies in point `t`'s output block exactly when each coordinate lies in the block's range on its axis. -/
theorem mem_block (t : Fin cfg0.N) (i : S250000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v9).slice (win0_2.rect t)).set ↔ _
  rw [View.set_slice_whole, Rect.mem_set_unit]
  exact Iff.rfl

/-- Row `r` of the output lies in the block of point `r / 10000`: the 25 blocks cover the array. -/
theorem covered (i : S250000x128.Idx) :
    ∃ t : Fin cfg0.N, (cfg0.win 2).flush t = true ∧ i ∈ ((cfg0.win 2).blk t).view.set := by
  have hi0 : (i 0).val < 250000 := (i 0).isLt
  have hi1 : (i 1).val < 128 := (i 1).isLt
  have hN : (i 0).val / 10000 < cfg0.N := by show _ < grid0.N; rw [N_0]; omega
  refine ⟨⟨(i 0).val / 10000, hN⟩, flush0_2 _, ?_⟩
  obtain ⟨-, -, -, -, q0, q1⟩ := same_block ⟨(i 0).val / 10000, hN⟩
  rw [mem_block]
  intro a
  match a with
  | ⟨0, _⟩ =>
    show win0_2.index ⟨(i 0).val / 10000, hN⟩ (0 : Fin 2) * 10000 ≤ (i 0).val
      ∧ (i 0).val < win0_2.index ⟨(i 0).val / 10000, hN⟩ (0 : Fin 2) * 10000 + 10000
    rw [q0]; show (i 0).val / 10000 * 10000 ≤ (i 0).val ∧ (i 0).val < (i 0).val / 10000 * 10000 + 10000; omega
  | ⟨1, _⟩ =>
    show win0_2.index ⟨(i 0).val / 10000, hN⟩ (1 : Fin 2) * 128 ≤ (i 1).val
      ∧ (i 1).val < win0_2.index ⟨(i 0).val / 10000, hN⟩ (1 : Fin 2) * 128 + 128
    rw [q1]; omega

/-- After region 0 its output array is the product of its two input arrays as the region found them. -/
theorem result (c : Dev nD) : (dat0 V c).arrAt 2 cfg0.N = prod (V c main_v7) (V c main_v8) :=
  (dat0 V c).arrAt_eq_of_cover 2 _ (fun t _ => wrote V c t) covered

end Cert.KernelIdeal.EdgeProduct

end
-- ==== Proof.Activation.lean ====
/-
  The node activation and the index bookkeeping around it, over literal shapes and no program.

  A node with aggregate g and parameters p₀ … p₅ gets x = g + p₀ and then ((p₁ · tanh x) · sin (p₂ · x + p₃) + p₄ · x) + p₅,
  the operations applied in that order. `outputs g P` is that value for each of the 1000000 nodes, from the vector of
  aggregates and the [1000000, 7] parameter array (column 6 is never read).

  The rest reads the layout operations that surround it at an index: a [1000000, 1] column viewed as a vector and back keeps
  its entries row for row; column k of the parameter array, sliced out and viewed as a vector, has entry (r, k) at r; and
  column k of the array's last six columns is column k + 1 of the array.
-/
import Idealize.ShloMosaic.PureOps
import Idealize.ShloMosaic.Lib.ValueIdx
import Idealize.ShloMosaic.Lib.Pipeline.Value

noncomputable section

namespace Cert.Activation

open Idealize.ShloMosaic Idealize.ShloMosaic.ValueIdx

variable {F : FTy → Type} [FloatOps F]

/-- One node's activation from its aggregate `g` and its six parameters, in the order the operations are applied:
    x = g + p₀, then ((p₁ · tanh x) · sin (p₂ · x + p₃) + p₄ · x) + p₅. -/
def act (g p0 p1 p2 p3 p4 p5 : Elt F .f32) : Elt F .f32 :=
  FloatOps.addf
    (FloatOps.addf
      (FloatOps.mulf (FloatOps.mulf p1 (FloatOps.tanh (FloatOps.addf g p0)))
        (FloatOps.sin (FloatOps.addf (FloatOps.mulf p2 (FloatOps.addf g p0)) p3)))
      (FloatOps.mulf p4 (FloatOps.addf g p0)))
    p5

/-- The vector of nodes, the same as a one-column array, the parameter array, and its last six columns. -/
abbrev Nodes : Shape := ⟨1, ![1000000]⟩
abbrev NodeCol : Shape := ⟨2, ![1000000, 1]⟩
abbrev Params : Shape := ⟨2, ![1000000, 7]⟩
abbrev Tail : Shape := ⟨2, ![1000000, 6]⟩

/-- Entry (r, k) of the parameter array. -/
abbrev entry (r : Fin 1000000) (k : Fin 7) : Params.Idx := ix2 r k

/-- Every node's activation, from the vector of aggregates and the parameter array. -/
def outputs (g : Nodes.Idx → Elt F .f32) (P : Params.Idx → Elt F .f32) : Nodes.Idx → Elt F .f32 := fun i =>
  act (g i) (P (entry ⟨(i 0).val, (i 0).isLt⟩ 0)) (P (entry ⟨(i 0).val, (i 0).isLt⟩ 1)) (P (entry ⟨(i 0).val, (i 0).isLt⟩ 2))
    (P (entry ⟨(i 0).val, (i 0).isLt⟩ 3)) (P (entry ⟨(i 0).val, (i 0).isLt⟩ 4)) (P (entry ⟨(i 0).val, (i 0).isLt⟩ 5))

section Layout
variable {α : Type}

/-- A one-column array viewed as a vector has, at r, the column's entry (r, 0). -/
theorem col_read (X : NodeCol.Idx → α) (h : NodeCol.ShapeCasts Nodes) (i : Nodes.Idx) :
    shapeCast Nodes X h i = X (ix2 (n0 := 1000000) (n1 := 1) ⟨(i 0).val, (i 0).isLt⟩ 0) :=
  shapeCast_apply X h i _ (by
    rw [Shape.rowMajor_val_two, Shape.rowMajor_val_one]
    show (i 0).val * 1 + 0 = (i 0).val
    omega)

/-- A vector viewed as a one-column array has, at (r, 0), the vector's entry r. -/
theorem vec_read (g : Nodes.Idx → α) (h : Nodes.ShapeCasts NodeCol) (k : NodeCol.Idx) :
    shapeCast NodeCol g h k = g (ix1 (n := 1000000) ⟨(k 0).val, idx2_lt0 k⟩) :=
  shapeCast_apply g h k _ (by
    have h1 : (k 1).val < 1 := idx2_lt1 k
    rw [Shape.rowMajor_val_two, Shape.rowMajor_val_one]
    show (k 0).val = (k 0).val * 1 + (k 1).val
    omega)

/-- Column k of the parameter array, as a one-column array, has at (r, 0) the entry (r, k). -/
theorem param_col (P : Params.Idx → α) (k : Fin 7) (h : Params.Slices ![0, k.val] NodeCol) (j : NodeCol.Idx) :
    extractStridedSlice NodeCol ![0, k.val] P h j = P (entry ⟨(j 0).val, idx2_lt0 j⟩ k) :=
  extractStridedSlice_apply _ P h j _ fun a => by
    have h1 : (j 1).val < 1 := idx2_lt1 j
    match a with
    | ⟨0, _⟩ => show (j 0).val = 0 + (j 0).val; omega
    | ⟨1, _⟩ => show k.val = k.val + (j 1).val; omega

/-- The last six columns of the parameter array have, at (r, q), the entry (r, q + 1). -/
theorem tail_entry (P : Params.Idx → α) (h : Params.Slices ![0, 1] Tail) (j : Tail.Idx) :
    extractStridedSlice Tail ![0, 1] P h j
      = P (entry ⟨(j 0).val, idx2_lt0 j⟩ ⟨(j 1).val + 1, by have := idx2_lt1 j; omega⟩) :=
  extractStridedSlice_apply _ P h j _ fun a => by
    match a with
    | ⟨0, _⟩ => show (j 0).val = 0 + (j 0).val; omega
    | ⟨1, _⟩ => show (j 1).val + 1 = 1 + (j 1).val; omega

/-- Column k of a six-column array, as a one-column array, has at (r, 0) the entry (r, k). -/
theorem tail_col (Q : Tail.Idx → α) (k : Fin 6) (h : Tail.Slices ![0, k.val] NodeCol) (j : NodeCol.Idx) :
    extractStridedSlice NodeCol ![0, k.val] Q h j = Q (ix2 (n0 := 1000000) (n1 := 6) ⟨(j 0).val, idx2_lt0 j⟩ k) :=
  extractStridedSlice_apply _ Q h j _ fun a => by
    have h1 : (j 1).val < 1 := idx2_lt1 j
    match a with
    | ⟨0, _⟩ => show (j 0).val = 0 + (j 0).val; omega
    | ⟨1, _⟩ => show k.val = k.val + (j 1).val; omega

/-- Column 0 of the parameter array, sliced out and viewed as a vector, has at r the entry (r, 0). -/
theorem bias_at (P : Params.Idx → α) (h1 : Params.Slices ![0, 0] NodeCol) (h2 : NodeCol.ShapeCasts Nodes) (i : Nodes.Idx) :
    shapeCast Nodes (extractStridedSlice NodeCol ![0, 0] P h1) h2 i = P (entry ⟨(i 0).val, (i 0).isLt⟩ 0) := by
  rw [col_read]
  exact param_col P 0 h1 _

/-- Column k of the last six columns, sliced out and viewed as a vector, has at r the entry (r, k + 1). -/
theorem coeff_at (P : Params.Idx → α) (k : Fin 6) (h0 : Params.Slices ![0, 1] Tail) (h1 : Tail.Slices ![0, k.val] NodeCol)
    (h2 : NodeCol.ShapeCasts Nodes) (i : Nodes.Idx) :
    shapeCast Nodes (extractStridedSlice NodeCol ![0, k.val] (extractStridedSlice Tail ![0, 1] P h0) h1) h2 i
      = P (entry ⟨(i 0).val, (i 0).isLt⟩ ⟨k.val + 1, by omega⟩) := by
  rw [col_read, tail_col, tail_entry]

end Layout

end Cert.Activation

end
-- ==== Proof.NodeActivation.lean ====
/-
  Region 1 applies the node activation row by row, 200 row blocks of 5000 rows each. With x = agg + p₀ for a row's
  aggregate agg and its parameters p₀ … p₅ (columns 0 to 5 of the parameter array; column 6 is never read), the row's
  result is ((p₁ · tanh x) · sin (p₂ · x + p₃) + p₄ · x) + p₅. Grid point `t` reads rows 5000·t … 5000·t + 4999 of the
  aggregate column and of the parameter array and writes the same rows of the output column, so once every point has
  written back, row r of the output is the activation of row r of the inputs as the region found them.
-/
import proofs.«110390_j1760936591969_1_alg».proof.Proof.Gen.KernelIdeal.Frame
import Idealize.ShloMosaic.Lib.Pipeline.Value
import Idealize.ShloMosaic.Lib.ValueIdx
import proofs.«110390_j1760936591969_1_alg».proof.Proof.Activation

set_option maxRecDepth 16384

noncomputable section

namespace Cert.KernelIdeal.NodeActivation

open Cert.KernelIdeal Cert.KernelIdeal.Gen Idealize.ShloMosaic Idealize.ShloMosaic.TcCoe Idealize.SL.Sem
open Idealize.ShloMosaic.Pipeline (Dat)
open Idealize.ShloMosaic.ValueIdx
open Cert.Activation (act)

variable {F : FTy → Type} [FloatOps F]

/-- Entry (r, k) of the parameter array, for a row index `i` of the one-column arrays. -/
abbrev param (i : S1000000x1.Idx) (k : Fin 7) : S1000000x7.Idx := ix2 (n0 := 1000000) (n1 := 7) ⟨(i 0).val, idx2_lt0 i⟩ k

/-- The activation of every row: what the output column holds from an aggregate column `X` and a parameter array `P`. -/
abbrev rows (X : S1000000x1.Idx → Elt F .f32) (P : S1000000x7.Idx → Elt F .f32) : S1000000x1.Idx → Elt F .f32 :=
  fun i => act (X i) (P (param i 0)) (P (param i 1)) (P (param i 2)) (P (param i 3)) (P (param i 4)) (P (param i 5))

/-- The staging buffers' loads and the store start at the origin on the row axis. -/
theorem origin : (![0, 0] : Fin 2 → Nat) = fun _ => 0 := funext fun a => by fin_cases a <;> rfl

/-- Entry (r, k) of a parameter block, for a row index `y` of a one-column block. -/
abbrev strip (y : S5000x1.Idx) (k : Fin 7) : S5000x7.Idx := ix2 (n0 := 5000) (n1 := 7) ⟨(y 0).val, idx2_lt0 y⟩ k

/-- A load of the one-column strip at column `k` of a parameter block reads, at row `y`, entry (y, k). -/
theorem strip_read (p : Vec F S5000x7 .f32) (k : Fin 7) (inb : ∀ a, (![0, k.val] : Fin 2 → Nat) a + S5000x1.size a ≤ S5000x7.size a)
    (y : S5000x1.Idx) : View.ld p (Rect.unit (s := S5000x7) ![0, k.val] S5000x1.size inb) y = p (strip y k) := by
  have h1 : (y 1).val < 1 := idx2_lt1 y
  refine congrArg p (funext fun a => Fin.ext ?_)
  match a with
  | ⟨0, _⟩ => show 0 + 1 * (y 0).val = (y 0).val; omega
  | ⟨1, _⟩ => show k.val + 1 * (y 1).val = k.val; omega

/-- What the body stores at row `y` of its block is the activation of that row of the blocks it loaded. -/
theorem stored_at (x : Vec F S5000x1 .f32) (p : Vec F S5000x7 .f32) (y : S5000x1.Idx) :
    k1_pay1 (View.ld x r1_0) (View.ld p r1_1) (View.ld p r1_2) (View.ld p r1_3) (View.ld p r1_4) (View.ld p r1_5) (View.ld p r1_6) y
      = act (x y) (p (strip y 0)) (p (strip y 1)) (p (strip y 2)) (p (strip y 3)) (p (strip y 4)) (p (strip y 5)) := by
  unfold k1_pay1
  rw [shapeCast_self, View.ld_unit_zero (S := S5000x1) origin]
  show act (x y) (View.ld p r1_1 y) (View.ld p r1_2 y) (View.ld p r1_3 y) (View.ld p r1_4 y) (View.ld p r1_5 y) (View.ld p r1_6 y) = _
  rw [show View.ld p r1_1 y = p (strip y 0) from strip_read p 0 _ y, show View.ld p r1_2 y = p (strip y 1) from strip_read p 1 _ y,
    show View.ld p r1_3 y = p (strip y 2) from strip_read p 2 _ y, show View.ld p r1_4 y = p (strip y 3) from strip_read p 3 _ y,
    show View.ld p r1_5 y = p (strip y 4) from strip_read p 4 _ y, show View.ld p r1_6 y = p (strip y 5) from strip_read p 5 _ y]

variable (V : (c : Dev nD) → (b : Ref sig .tc) → Buf (Elt F) ((c : Thread nD τ).loc b))

/-- At every grid point the three windows sit on the same row block, number `t`, and on their one column block. -/
theorem same_block : ∀ t : Fin cfg1.N,
    win1_0.index t (0 : Fin 2) = win1_2.index t (0 : Fin 2) ∧ win1_0.index t (1 : Fin 2) = win1_2.index t (1 : Fin 2)
    ∧ win1_1.index t (0 : Fin 2) = win1_2.index t (0 : Fin 2) ∧ win1_1.index t (1 : Fin 2) = 0
    ∧ win1_2.index t (0 : Fin 2) = t.val ∧ win1_2.index t (1 : Fin 2) = 0 :=
  (by decide +kernel : ∀ t : Fin grid1.N, _)

/-- Point `t` writes back rows 5000·t … of the activation of the two input arrays. -/
theorem wrote (c : Dev nD) (t : Fin cfg1.N) :
    (dat1 V c).flushed 2 t = ((cfg1.win 2).blk t).view.read (Elt F) (rows (V c main_v14) (V c main_arg2)) := by
  show (cfg1.win 2).cut (grid1.coords t) ((dat1 V c).after 2 t) = _
  rw [after1_2]
  unfold out1_2
  rw [View.canon_unit_zero origin]
  obtain ⟨e0, e1, e2, e3, -, e5⟩ := same_block t
  funext y
  have h1 : (y 1).val < 1 := idx2_lt1 y
  refine (stored_at (iblk1 V c 0 t) (iblk1 V c 1 t) y).trans ?_
  have hX : ((cfg1.win 0).blk t).view.emb y = ((cfg1.win 2).blk t).view.emb y := by
    funext a; apply Fin.ext
    match a with
    | ⟨0, _⟩ => show win1_0.index t (0 : Fin 2) * 5000 + 1 * (y 0).val = win1_2.index t (0 : Fin 2) * 5000 + 1 * (y 0).val; omega
    | ⟨1, _⟩ => show win1_0.index t (1 : Fin 2) * 1 + 1 * (y 1).val = win1_2.index t (1 : Fin 2) * 1 + 1 * (y 1).val; omega
  have hP : ∀ k : Fin 7, ((cfg1.win 1).blk t).view.emb (strip y k) = param (((cfg1.win 2).blk t).view.emb y) k := fun k => by
    funext a; apply Fin.ext
    match a with
    | ⟨0, _⟩ => show win1_1.index t (0 : Fin 2) * 5000 + 1 * (y 0).val = win1_2.index t (0 : Fin 2) * 5000 + 1 * (y 0).val; omega
    | ⟨1, _⟩ => show win1_1.index t (1 : Fin 2) * 7 + 1 * k.val = k.val; omega
  show act (V c main_v14 (((cfg1.win 0).blk t).view.emb y)) (V c main_arg2 (((cfg1.win 1).blk t).view.emb (strip y 0)))
      (V c main_arg2 (((cfg1.win 1).blk t).view.emb (strip y 1))) (V c main_arg2 (((cfg1.win 1).blk t).view.emb (strip y 2)))
      (V c main_arg2 (((cfg1.win 1).blk t).view.emb (strip y 3))) (V c main_arg2 (((cfg1.win 1).blk t).view.emb (strip y 4)))
      (V c main_arg2 (((cfg1.win 1).blk t).view.emb (strip y 5)))
    = rows (V c main_v14) (V c main_arg2) (((cfg1.win 2).blk t).view.emb y)
  rw [hX, hP 0, hP 1, hP 2, hP 3, hP 4, hP 5]

/-- An index lies in point `t`'s output block exactly when each coordinate lies in the block's range on its axis. -/
theorem mem_block (t : Fin cfg1.N) (i : S1000000x1.Idx) :
    i ∈ ((cfg1.win 2).blk t).view.set ↔ ∀ a : Fin 2, win1_2.index t a * S5000x1.size a ≤ (i a).val
      ∧ (i a).val < win1_2.index t a * S5000x1.size a + S5000x1.size a := by
  show i ∈ ((View.whole main_v15).slice (win1_2.rect t)).set ↔ _
  rw [View.set_slice_whole, Rect.mem_set_unit]
  exact Iff.rfl

/-- Row `r` of the output lies in the block of point `r / 5000`: the 200 blocks cover the column. -/
theorem covered (i : S1000000x1.Idx) :
    ∃ t : Fin cfg1.N, (cfg1.win 2).flush t = true ∧ i ∈ ((cfg1.win 2).blk t).view.set := by
  have hi0 : (i 0).val < 1000000 := idx2_lt0 i
  have hi1 : (i 1).val < 1 := idx2_lt1 i
  have hN : (i 0).val / 5000 < cfg1.N := by show _ < grid1.N; rw [N_1]; omega
  refine ⟨⟨(i 0).val / 5000, hN⟩, flush1_2 _, ?_⟩
  obtain ⟨-, -, -, -, q0, q1⟩ := same_block ⟨(i 0).val / 5000, hN⟩
  rw [mem_block]
  intro a
  match a with
  | ⟨0, _⟩ =>
    show win1_2.index ⟨(i 0).val / 5000, hN⟩ (0 : Fin 2) * 5000 ≤ (i 0).val
      ∧ (i 0).val < win1_2.index ⟨(i 0).val / 5000, hN⟩ (0 : Fin 2) * 5000 + 5000
    rw [q0]; show (i 0).val / 5000 * 5000 ≤ (i 0).val ∧ (i 0).val < (i 0).val / 5000 * 5000 + 5000; omega
  | ⟨1, _⟩ =>
    show win1_2.index ⟨(i 0).val / 5000, hN⟩ (1 : Fin 2) * 1 ≤ (i 1).val
      ∧ (i 1).val < win1_2.index ⟨(i 0).val / 5000, hN⟩ (1 : Fin 2) * 1 + 1
    rw [q1]; omega

/-- After region 1 its output column is the activation, row by row, of its two input arrays as the region found them. -/
theorem result (c : Dev nD) : (dat1 V c).arrAt 2 cfg1.N = rows (V c main_v14) (V c main_arg2) :=
  (dat1 V c).arrAt_eq_of_cover 2 _ (fun t _ => wrote V c t) covered

end Cert.KernelIdeal.NodeActivation

end
-- ==== Proof.KernelValue.lean ====
/-
  What the kernel's program leaves in its result array, read back from the last host operation to the launch.

  The result is the output column of region 1 viewed as a vector. Region 1's output column is the node activation, row by
  row, of the aggregate column and the parameter array (which no operation writes). The aggregate column is the aggregate
  vector viewed as a column, and the aggregate vector is the scatter-add, from zero and by destination node, of region 0's
  output viewed as a flat vector. Region 0's output is the product of the gathered source outputs and the edge weights, both
  viewed as [250000, 128] arrays; a product taken entry by entry does not care how its operands are laid out, so viewed flat
  again it is the product of the two flat vectors. Together: the result is `outputs` of the aggregate vector and the
  parameter array.
-/
import proofs.«110390_j1760936591969_1_alg».proof.Proof.EdgeProduct
import proofs.«110390_j1760936591969_1_alg».proof.Proof.NodeActivation
import Idealize.ShloMosaic.Lib.StableHlo.Run

set_option maxRecDepth 16384

noncomputable section

namespace Cert.KernelIdeal.KernelValue

open Cert.KernelIdeal Cert.KernelIdeal.Gen Idealize.ShloMosaic Idealize.ShloMosaic.TcCoe Idealize.SL.Sem Idealize.ShloMosaic.StableHlo
open Idealize.ShloMosaic.ValueIdx
open Cert.Activation

variable {F : FTy → Type} [FloatOps F]

/-- The aggregate of every node: the messages, each the source node's output (the source index taken from the end when
    negative) times the edge's weight, summed into their destination nodes from zero. -/
def aggregate (out : FVec F S1000000 .f32) (w : FVec F S32000000 .f32) (src dst : IVec S32000000 32) : FVec F S1000000 .f32 :=
  Host.scatterAdd scatter_S1000000_S32000000x1_S32000000_n_0_0_1 (broadcastInDim S1000000 ![] bcast_S_S1000000 (constant S_ .f32 0x00000000#32))
    (broadcastInDim S32000000x1 ![0] bcast_S32000000_S32000000x1_0 dst)
    (mulf (Host.gather gather_S1000000_S32000000x1_S32000000_n_0_n_n_0_1_1 out
      (broadcastInDim S32000000x1 ![0] bcast_S32000000_S32000000x1_0
        (select (cmpi .slt src (broadcastInDim S32000000 ![] bcast_S_S32000000 (constantI S_ 32 0#32)))
          (addi src (broadcastInDim S32000000 ![] bcast_S_S32000000 (constantI S_ 32 1000000#32))) src))) w)

/-- A product taken entry by entry of two flat vectors viewed as arrays, viewed flat again, is the product of the vectors. -/
theorem flat_product (a b : S32000000.Idx → Elt F .f32) (h : S32000000.ShapeCasts S250000x128) (h' : S250000x128.ShapeCasts S32000000) :
    shapeCast S32000000 (EdgeProduct.prod (shapeCast S250000x128 a h) (shapeCast S250000x128 b h)) h' = mulf a b := by
  show mulf (shapeCast S32000000 (shapeCast S250000x128 a h) h') (shapeCast S32000000 (shapeCast S250000x128 b h) h') = _
  rw [shapeCast_shapeCast, shapeCast_shapeCast]

/-- The row-by-row activation of an aggregate vector viewed as a column, viewed as a vector again, is `outputs`. -/
theorem column_rows (g : S1000000.Idx → Elt F .f32) (P : S1000000x7.Idx → Elt F .f32) (h : S1000000.ShapeCasts S1000000x1)
    (h' : S1000000x1.ShapeCasts S1000000) :
    shapeCast S1000000 (NodeActivation.rows (shapeCast S1000000x1 g h) P) h' = outputs g P := by
  funext i
  have hg : shapeCast S1000000x1 g h (ix2 (n0 := 1000000) (n1 := 1) ⟨(i 0).val, (i 0).isLt⟩ 0) = g i :=
    (vec_read g h _).trans (congrArg g (eq_ix1 i).symm)
  refine (col_read _ h' i).trans ?_
  show act (shapeCast S1000000x1 g h (ix2 (n0 := 1000000) (n1 := 1) ⟨(i 0).val, (i 0).isLt⟩ 0)) _ _ _ _ _ _ = act (g i) _ _ _ _ _ _
  rw [hg]
  try rfl

variable (m : (ℓ : Loc nD τ sig) → Buf (Elt F) ℓ) (ρ : Dev nD → PrngReg)

/-- Region 0 finds, as its first input, the gathered source outputs viewed as an array; -/
theorem gathered_in (c : Dev nD) :
    V1 m ρ c main_v7 = shapeCast S250000x128 (Host.gather gather_S1000000_S32000000x1_S32000000_n_0_n_n_0_1_1 (m ((c : Thread nD τ).loc main_arg0))
      (broadcastInDim S32000000x1 ![0] bcast_S32000000_S32000000x1_0
        (select (cmpi .slt (m ((c : Thread nD τ).loc main_arg3)) (broadcastInDim S32000000 ![] bcast_S_S32000000 (constantI S_ 32 0#32)))
          (addi (m ((c : Thread nD τ).loc main_arg3)) (broadcastInDim S32000000 ![] bcast_S_S32000000 (constantI S_ 32 1000000#32)))
          (m ((c : Thread nD τ).loc main_arg3))))) shapeCasts_S32000000_S250000x128 := by
  show StableHlo.after hostOps0 (W0 m ρ c) (Proc.devRef .tc main_v7) = _
  after_results
  rfl

/-- and as its second the edge weights viewed as an array. -/
theorem weights_in (c : Dev nD) :
    V1 m ρ c main_v8 = shapeCast S250000x128 (m ((c : Thread nD τ).loc main_arg1)) shapeCasts_S32000000_S250000x128 := by
  show StableHlo.after hostOps0 (W0 m ρ c) (Proc.devRef .tc main_v8) = _
  after_results
  rfl

/-- Region 0 leaves the product of its two inputs in its output array. -/
theorem messages (c : Dev nD) :
    W2 m ρ c (Proc.devRef .tc main_v9) = EdgeProduct.prod (V1 m ρ c main_v7) (V1 m ρ c main_v8) :=
  (W2_arr m ρ c 2).trans (EdgeProduct.result (V1 m ρ) c)

/-- The destination indices are as launched when region 0 ends. -/
theorem dst_kept (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results)

/-- The parameter array is as launched when region 0 ends. -/
theorem params_kept (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results)

/-- Region 1 finds, as its first input, the scatter-add of region 0's output viewed flat, viewed as a column; -/
theorem aggregate_in (c : Dev nD) :
    V3 m ρ c main_v14 = shapeCast S1000000x1 (Host.scatterAdd scatter_S1000000_S32000000x1_S32000000_n_0_0_1
      (broadcastInDim S1000000 ![] bcast_S_S1000000 (constant S_ .f32 0x00000000#32))
      (broadcastInDim S32000000x1 ![0] bcast_S32000000_S32000000x1_0 (W2 m ρ c (Proc.devRef .tc main_arg4)))
      (shapeCast S32000000 (W2 m ρ c (Proc.devRef .tc main_v9)) shapeCasts_S250000x128_S32000000)) shapeCasts_S1000000_S1000000x1 := by
  show StableHlo.after hostOps1 (W2 m ρ c) (Proc.devRef .tc main_v14) = _
  after_results
  rfl

/-- and as its second the parameter array as launched. -/
theorem params_in (c : Dev nD) : V3 m ρ c main_arg2 = m ((c : Thread nD τ).loc main_arg2) := by
  show StableHlo.after hostOps1 (W2 m ρ c) (Proc.devRef .tc main_arg2) = _
  after_results
  exact params_kept m ρ c

/-- Region 1 leaves the row-by-row activation of its two inputs in its output column. -/
theorem activated (c : Dev nD) :
    W4 m ρ c (Proc.devRef .tc main_v15) = NodeActivation.rows (V3 m ρ c main_v14) (V3 m ρ c main_arg2) :=
  (W4_arr m ρ c 2).trans (NodeActivation.result (V3 m ρ) c)

/-- The result array is region 1's output column viewed as a vector. -/
theorem result_array (c : Dev nD) :
    W5 m ρ c (Proc.devRef .tc main_v16) = shapeCast S1000000 (W4 m ρ c (Proc.devRef .tc main_v15)) shapeCasts_S1000000x1_S1000000 := by
  show StableHlo.after hostOps2 (W4 m ρ c) (Proc.devRef .tc main_v16) = _
  after_results
  rfl

/-- The kernel's result: the activation of the aggregate vector and the parameter array, all read at launch. -/
theorem value (c : Dev nD) :
    W5 m ρ c (Proc.devRef .tc main_v16)
      = outputs (aggregate (m ((c : Thread nD τ).loc main_arg0)) (m ((c : Thread nD τ).loc main_arg1))
          (m ((c : Thread nD τ).loc main_arg3)) (m ((c : Thread nD τ).loc main_arg4))) (m ((c : Thread nD τ).loc main_arg2)) := by
  rw [result_array, activated, params_in, aggregate_in, dst_kept, messages, gathered_in, weights_in, flat_product, column_rows]
  rfl

end Cert.KernelIdeal.KernelValue

end
-- ==== Proof.RefRows.lean ====
/-
  The reference computes, for every node r, the activation of its aggregate and its parameters: the aggregate vector is the
  scatter-add of the edge messages, and parameter k of node r is entry (r, k) of the parameter array, reached by slicing a
  column out and viewing it as a vector (columns 1 to 5 through the array's last six columns). Its result is therefore
  `outputs` of the aggregate vector and the parameter array, the host's tanh and sine being the extended reals' own.
-/
import proofs.«110390_j1760936591969_1_alg».proof.Proof.Gen.ReferenceIdeal.Run
import proofs.«110390_j1760936591969_1_alg».proof.Proof.Activation

noncomputable section

namespace Cert.ReferenceIdeal.RefValue

open Cert.ReferenceIdeal Cert.ReferenceIdeal.Gen Cert.ReferenceIdeal.Value Idealize.ShloMosaic Idealize.ShloMosaic.TcCoe Idealize.SL.Sem
open Cert.Activation

/-- The aggregate of every node: the messages, each the source node's output (the source index taken from the end when
    negative) times the edge's weight, summed into their destination nodes from zero. -/
def aggregate {F : FTy → Type} [FloatOps F] (out : FVec F S1000000 .f32) (w : FVec F S32000000 .f32) (src dst : IVec S32000000 32) : FVec F S1000000 .f32 :=
  Host.scatterAdd scatter_S1000000_S32000000x1_S32000000_n_0_0_1 (broadcastInDim S1000000 ![] bcast_S_S1000000 (constant S_ .f32 0x00000000#32))
    (broadcastInDim S32000000x1 ![0] bcast_S32000000_S32000000x1_0 dst)
    (mulf (Host.gather gather_S1000000_S32000000x1_S32000000_n_0_n_n_0_1_1 out
      (broadcastInDim S32000000x1 ![0] bcast_S32000000_S32000000x1_0
        (select (cmpi .slt src (broadcastInDim S32000000 ![] bcast_S_S32000000 (constantI S_ 32 0#32)))
          (addi src (broadcastInDim S32000000 ![] bcast_S_S32000000 (constantI S_ 32 1000000#32))) src))) w)

/-- The reference's arithmetic on an aggregate vector `g` and the parameter array `P`, node by node, is the activation. -/
theorem activation_eq (g : FVec Ideal S1000000 .f32) (P : FVec Ideal S1000000x7 .f32) :
    addf (addf (mulf (mulf (shapeCast S1000000 (extractStridedSlice S1000000x1 ![0, 0] (extractStridedSlice S1000000x6 ![0, 1] P slices_S1000000x7_S1000000x6_0_1) slices_S1000000x6_S1000000x1_0_0) shapeCasts_S1000000x1_S1000000)
        (Host.tanh (addf g (shapeCast S1000000 (extractStridedSlice S1000000x1 ![0, 0] P slices_S1000000x7_S1000000x1_0_0) shapeCasts_S1000000x1_S1000000))))
        (Host.sin (addf (mulf (shapeCast S1000000 (extractStridedSlice S1000000x1 ![0, 1] (extractStridedSlice S1000000x6 ![0, 1] P slices_S1000000x7_S1000000x6_0_1) slices_S1000000x6_S1000000x1_0_1) shapeCasts_S1000000x1_S1000000)
          (addf g (shapeCast S1000000 (extractStridedSlice S1000000x1 ![0, 0] P slices_S1000000x7_S1000000x1_0_0) shapeCasts_S1000000x1_S1000000)))
          (shapeCast S1000000 (extractStridedSlice S1000000x1 ![0, 2] (extractStridedSlice S1000000x6 ![0, 1] P slices_S1000000x7_S1000000x6_0_1) slices_S1000000x6_S1000000x1_0_2) shapeCasts_S1000000x1_S1000000))))
        (mulf (shapeCast S1000000 (extractStridedSlice S1000000x1 ![0, 3] (extractStridedSlice S1000000x6 ![0, 1] P slices_S1000000x7_S1000000x6_0_1) slices_S1000000x6_S1000000x1_0_3) shapeCasts_S1000000x1_S1000000)
          (addf g (shapeCast S1000000 (extractStridedSlice S1000000x1 ![0, 0] P slices_S1000000x7_S1000000x1_0_0) shapeCasts_S1000000x1_S1000000))))
      (shapeCast S1000000 (extractStridedSlice S1000000x1 ![0, 4] (extractStridedSlice S1000000x6 ![0, 1] P slices_S1000000x7_S1000000x6_0_1) slices_S1000000x6_S1000000x1_0_4) shapeCasts_S1000000x1_S1000000)
    = outputs (F := Ideal) g P := by
  funext i
  unfold outputs
  rw [show P (entry ⟨(i 0).val, (i 0).isLt⟩ 0) = _ from
      (bias_at P slices_S1000000x7_S1000000x1_0_0 shapeCasts_S1000000x1_S1000000 i).symm,
    show P (entry ⟨(i 0).val, (i 0).isLt⟩ 1) = _ from
      (coeff_at P 0 slices_S1000000x7_S1000000x6_0_1 slices_S1000000x6_S1000000x1_0_0 shapeCasts_S1000000x1_S1000000 i).symm,
    show P (entry ⟨(i 0).val, (i 0).isLt⟩ 2) = _ from
      (coeff_at P 1 slices_S1000000x7_S1000000x6_0_1 slices_S1000000x6_S1000000x1_0_1 shapeCasts_S1000000x1_S1000000 i).symm,
    show P (entry ⟨(i 0).val, (i 0).isLt⟩ 3) = _ from
      (coeff_at P 2 slices_S1000000x7_S1000000x6_0_1 slices_S1000000x6_S1000000x1_0_2 shapeCasts_S1000000x1_S1000000 i).symm,
    show P (entry ⟨(i 0).val, (i 0).isLt⟩ 4) = _ from
      (coeff_at P 3 slices_S1000000x7_S1000000x6_0_1 slices_S1000000x6_S1000000x1_0_3 shapeCasts_S1000000x1_S1000000 i).symm,
    show P (entry ⟨(i 0).val, (i 0).isLt⟩ 5) = _ from
      (coeff_at P 4 slices_S1000000x7_S1000000x6_0_1 slices_S1000000x6_S1000000x1_0_4 shapeCasts_S1000000x1_S1000000 i).symm]
  rfl

/-- The reference's result is the activation of the aggregate vector and the parameter array, all read at launch. -/
theorem result_eq (m : (ℓ : Loc nD τ sig) → Buf (Elt Ideal) ℓ) (c : Dev nD) :
    res_main_v33 (F := Ideal) m c
      = outputs (F := Ideal) (aggregate (F := Ideal) (m ((c.tc : Thread nD τ).loc main_arg0)) (m ((c.tc : Thread nD τ).loc main_arg1))
          (m ((c.tc : Thread nD τ).loc main_arg3)) (m ((c.tc : Thread nD τ).loc main_arg4))) (m ((c.tc : Thread nD τ).loc main_arg2)) := by
  unfold res_main_v33 aggregate
  exact activation_eq _ _

end Cert.ReferenceIdeal.RefValue

end
-- ==== Proof.lean ====
/-
  The kernel and the reference compute the same node outputs over the extended reals.

  Both programs form, with the same host operations, the aggregate of every node: each edge's message is its source node's
  output times the edge's weight, and a node's aggregate is the sum of the messages that arrive at it. Both then apply to node
  r, with x = aggregate r + p₀, the activation ((p₁ · tanh x) · sin (p₂ · x + p₃) + p₄ · x) + p₅ over the parameters p₀ … p₅
  of row r, the operations in the same order. They differ only in where the arithmetic runs and how the arrays are laid out
  on the way: the kernel multiplies the messages in a pallas_call over [250000, 128] views of the flat vectors and activates
  in a second pallas_call over one-column arrays, 5000 rows at a time, while the reference works on the flat vectors and
  slices the parameter columns out. A product or an activation taken entry by entry does not see the layout, and the host's
  tanh and sine are the same functions of an extended real as the kernel's. So both result arrays are `outputs` of the same
  aggregate vector and the same parameter array, and no property of the inputs is used.

  The two kernel programs' frames are the generated ones; the reference's frame is its generated run with the result dropped;
  the ideal pass rewrote nothing, so there is nothing to preserve.
-/
import proofs.«110390_j1760936591969_1_alg».proof.Defs
import proofs.«110390_j1760936591969_1_alg».proof.Proof.Gen.Kernel
import proofs.«110390_j1760936591969_1_alg».proof.Proof.Gen.Kernel.Skeleton
import proofs.«110390_j1760936591969_1_alg».proof.Proof.Gen.Kernel.Launch
import proofs.«110390_j1760936591969_1_alg».proof.Proof.Gen.Kernel.Points
import proofs.«110390_j1760936591969_1_alg».proof.Proof.Gen.Kernel.Frame
import proofs.«110390_j1760936591969_1_alg».proof.Proof.Gen.KernelIdeal
import proofs.«110390_j1760936591969_1_alg».proof.Proof.Gen.KernelIdeal.Skeleton
import proofs.«110390_j1760936591969_1_alg».proof.Proof.Gen.KernelIdeal.Launch
import proofs.«110390_j1760936591969_1_alg».proof.Proof.Gen.KernelIdeal.Points
import proofs.«110390_j1760936591969_1_alg».proof.Proof.Gen.KernelIdeal.Frame
import proofs.«110390_j1760936591969_1_alg».proof.Proof.Gen.ReferenceIdeal
import proofs.«110390_j1760936591969_1_alg».proof.Proof.Gen.Pre_finite_inputs
import proofs.«110390_j1760936591969_1_alg».proof.Proof.Gen.ReferenceIdeal.Run
import proofs.«110390_j1760936591969_1_alg».proof.Proof.KRun
import proofs.«110390_j1760936591969_1_alg».proof.Proof.KernelValue
import proofs.«110390_j1760936591969_1_alg».proof.Proof.RefRows
import Idealize.ShloMosaic.Adequacy
import Idealize.ShloMosaic.Init

noncomputable section

namespace Cert.Proof

open Idealize.ShloMosaic Idealize.ShloMosaic.TcCoe Idealize.SL.Sem

/-- The two programs spell the aggregate with the same operations over the same shapes: one function. -/
theorem aggregate_same (out : FVec Ideal Cert.KernelIdeal.S1000000 .f32) (w : FVec Ideal Cert.KernelIdeal.S32000000 .f32)
    (src dst : IVec Cert.KernelIdeal.S32000000 32) :
    Cert.ReferenceIdeal.RefValue.aggregate (F := Ideal) out w src dst = Cert.KernelIdeal.KernelValue.aggregate (F := Ideal) out w src dst := rfl

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result array at the activation of the aggregate
    vector and the parameter array: the kernel's by its run read back, the reference's by its run, the two aggregates one
    function of arguments that agree. -/
theorem algebraic : Cert.algebraic_KernelIdeal_ReferenceIdeal := by
  intro m ρ m' ρ' _ hagree
  refine ⟨fun c => Cert.Activation.outputs (F := Ideal)
      (Cert.KernelIdeal.KernelValue.aggregate (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.KernelValue.value m ρ c), (h c).2⟩)
      (Cert.KernelIdeal.Named.run_named m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.result_eq, (hagree c).1, (hagree c).2.1, (hagree c).2.2.1, (hagree c).2.2.2.1,
      (hagree c).2.2.2.2, aggregate_same]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
